-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000x128 : Shape := ⟨2, ![600000, 128]⟩
abbrev S1x128 : Shape := ⟨2, ![1, 128]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S1x128 : S_.BroadcastsInDim S1x128 (![] : Fin 0 → Fin S1x128.rank)
  reducesTo_S1x128_S_d0_1 : S1x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x600000 32) (main_arg2 : FVec F S600000x128 .f32) (main_arg3 : FVec F S1x128 .f32) (main_arg4 : FVec F S384x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x600000 : Shape := ⟨2, ![2, 600000]⟩
abbrev S600000x128 : Shape := ⟨2, ![600000, 128]⟩
abbrev S1x128 : Shape := ⟨2, ![1, 128]⟩
abbrev S384x128 : Shape := ⟨2, ![384, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S4000x128 : Shape := ⟨2, ![4000, 128]⟩

abbrev nBuf : Space → Nat
  | .hbm => 35
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x128, .f32⟩
  | .hbm, ⟨3, _⟩ => ⟨S1x128, .f32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x600000, .i32⟩
  | .hbm, ⟨13, _⟩ => ⟨S600000, .i32⟩
  | .hbm, ⟨14, _⟩ => ⟨S_, .f32⟩
  | .hbm, ⟨15, _⟩ => ⟨S100000x128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S100000x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S4000x128, .f32⟩
  | .local _ .vmem, ⟨14, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x600000_S1x600000_0_0 : S2x600000.Slices ![0, 0] S1x600000
  shapeCasts_S1x600000_S600000 : S1x600000.ShapeCasts S600000
  bcast_S_S100000x128 : S_.BroadcastsInDim S100000x128 (![] : Fin 0 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  bcast_S128_S1x128_1 : S128.BroadcastsInDim S1x128 (![1] : Fin 1 → Fin S1x128.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S100000x128_S600000x1_S600000x128_1_0_0_1_wf : ScatterDims.WF S100000x128 S600000x1 S600000x128 [1] [0] [0] 1
  dot_S1x128_S128x128_S1x128_1_0_0_1_n_n_wf : DotDims.WF S1x128 S128x128 S1x128 [1] [0] [0] [1] [] []
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S100000x128.size a
  hwx0_11 : ∀ i : grid0.Coords, EltTy.bits .f32 = 32 ∨ (Rect.block (s := S100000x128) S4000x128.size (cc0_transform_11 i) (hinb0_11 i)).WholeWords (EltTy.packing .f32)

variable [Facts₀]

def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S4000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000x128 : Shape := ⟨2, ![600000, 128]⟩
abbrev S1x128 : Shape := ⟨2, ![1, 128]⟩
abbrev S384x128 : Shape := ⟨2, ![384, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x100000x128 : Shape := ⟨3, ![1, 100000, 128]⟩
abbrev S100000x384 : Shape := ⟨2, ![100000, 384]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x128, .f32⟩
  | .hbm, ⟨3, _⟩ => ⟨S1x128, .f32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x600000, .i32⟩
  | .hbm, ⟨13, _⟩ => ⟨S600000, .i32⟩
  | .hbm, ⟨14, _⟩ => ⟨S_, .f32⟩
  | .hbm, ⟨15, _⟩ => ⟨S100000x128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S100000x128, .f32⟩
  | .hbm, ⟨25, _⟩ => ⟨S1x100000x128, .f32⟩
  | .hbm, ⟨26, _⟩ => ⟨S100000x128, .f32⟩
  | .hbm, ⟨27, _⟩ => ⟨S100000x384, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .i1⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S100000x128, .i1⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_call1_cst : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  bcast_S_S100000x128 : S_.BroadcastsInDim S100000x128 (![] : Fin 0 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S1x128_S1x100000x128_0_2 : S1x128.BroadcastsInDim S1x100000x128 (![0, 2] : Fin 2 → Fin S1x100000x128.rank)
  shapeCasts_S1x100000x128_S100000x128 : S1x100000x128.ShapeCasts S100000x128
  concatenates_S100000x128_S100000x128_S100000x128_S100000x384_d1 : Shape.Concatenates [S100000x128, S100000x128, S100000x128] S100000x384 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000x128_S600000x1_S600000x128_1_0_0_1_wf : ScatterDims.WF S100000x128 S600000x1 S600000x128 [1] [0] [0] 1
  dot_S100000x384_S384x128_S100000x128_1_0_0_1_n_n_wf : DotDims.WF S100000x384 S384x128 S100000x128 [1] [0] [0] [1] [] []
  dot_S100000x128_S128x128_S100000x128_1_0_0_1_n_n_wf : DotDims.WF S100000x128 S128x128 S100000x128 [1] [0] [0] [1] [] []

variable [Facts₀]

def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The function both programs compute, row by row, on the extended reals.

  A node's output row depends only on that node's row of features `x`, its row of aggregated edge
  features `ea`, the one global row `g` and the weights:
      c      = x_row · Wc[0:128] + ea_row · Wc[128:256] + g · Wc[256:384] + bc        (the combine layer)
      out    = dense W3 b3 (softplus (dense W2 b2 (softplus (dense W1 b1 c))))
  with `dense W b h = h · W + b` and `softplus v = max v 0 + log1p (exp (-|v|))`.

  One program forms `c` as (x·Wc₀ + ea·Wc₁) + (bc + g·Wc₂), three contractions over 128 terms; the other
  concatenates the three rows into one of 384 entries and contracts once over 384 terms, then adds `bc`.
  Addition on the extended reals is commutative and associative (no finiteness is needed: nothing is
  distributed or cancelled), and a sum over 384 = 128 + 128 + 128 indices splits into the three partial
  sums, so the two are one value: `combine_cat`.
-/
import Idealize.ShloMosaic.PureOps.Ideal
import Idealize.ShloMosaic.PureOps.Ideal.Laws
import Idealize.ShloMosaic.Lib.ValueIdx

noncomputable section

open scoped BigOperators

namespace Cert.Mlp

open Idealize.ShloMosaic Idealize.ShloMosaic.ValueIdx

/-- A rank-2 array of extended reals. -/
abbrev Mat (r c : Nat) := (⟨2, ![r, c]⟩ : Shape).Idx → EReal
/-- A rank-1 array of extended reals. -/
abbrev Row (n : Nat) := (⟨1, ![n]⟩ : Shape).Idx → EReal

/-- `softplus v = max v 0 + log1p (exp (-|v|))`, with `|v| = max v (-v)`: the numerically stable
    spelling of `log (1 + exp v)` both programs use. -/
def softplus (v : EReal) : EReal := max v 0 + Ideal.log1p (Ideal.exp (-(max v (-v))))

/-- One dense layer on a row `h`: entry `q` of `h · W + b` (the bias given entry by entry). -/
def dense (W : Mat 128 128) (b : Fin 128 → EReal) (h : Fin 128 → EReal) (q : Fin 128) : EReal :=
  (∑ k : Fin 128, h k * W (ix2 k q)) + b q

/-- Row `k` of the `j`-th 128-row slab of the 384-row combine weight. -/
abbrev slab (j : Fin 3) (k : Fin 128) : Fin 384 := ⟨128 * j.val + k.val, by have := j.isLt; have := k.isLt; omega⟩

/-- The combine layer at row `p`, column `q`, grouped as three 128-term contractions:
    `(x·Wc₀ + ea·Wc₁) + (bc + g·Wc₂)`. -/
def combine {R : Nat} (x ea : Mat R 128) (g : Mat 1 128) (Wc : Mat 384 128) (bc : Row 128)
    (p : Fin R) (q : Fin 128) : EReal :=
  ((∑ k : Fin 128, x (ix2 p k) * Wc (ix2 (slab 0 k) q)) + (∑ k : Fin 128, ea (ix2 p k) * Wc (ix2 (slab 1 k) q)))
    + (bc (ix1 q) + ∑ k : Fin 128, g (ix2 0 k) * Wc (ix2 (slab 2 k) q))

/-- The three layers after the combine layer, on one row `c`. -/
def head (W1 : Mat 128 128) (b1 : Fin 128 → EReal) (W2 : Mat 128 128) (b2 : Fin 128 → EReal)
    (W3 : Mat 128 128) (b3 : Fin 128 → EReal) (c : Fin 128 → EReal) (q : Fin 128) : EReal :=
  dense W3 b3 (fun k => softplus (dense W2 b2 (fun k' => softplus (dense W1 b1 c k')) k)) q

/-- The whole network: the output array, index by index, as a function of the arrays it reads. -/
def mlp {R : Nat} (x ea : Mat R 128) (g : Mat 1 128) (Wc : Mat 384 128) (bc : Row 128)
    (W1 : Mat 128 128) (b1 : Row 128) (W2 : Mat 128 128) (b2 : Row 128) (W3 : Mat 128 128) (b3 : Row 128) :
    Mat R 128 :=
  fun j => head W1 (fun q => b1 (ix1 q)) W2 (fun q => b2 (ix1 q)) W3 (fun q => b3 (ix1 q))
    (combine x ea g Wc bc (j 0)) (j 1)

theorem mlp_apply {R : Nat} (x ea : Mat R 128) (g : Mat 1 128) (Wc : Mat 384 128) (bc : Row 128)
    (W1 : Mat 128 128) (b1 : Row 128) (W2 : Mat 128 128) (b2 : Row 128) (W3 : Mat 128 128) (b3 : Row 128)
    (p : Fin R) (q : Fin 128) :
    mlp x ea g Wc bc W1 b1 W2 b2 W3 b3 (ix2 p q)
      = head W1 (fun q => b1 (ix1 q)) W2 (fun q => b2 (ix1 q)) W3 (fun q => b3 (ix1 q)) (combine x ea g Wc bc p) q := rfl

/-! ## The concatenated form of the combine layer -/

/-- The three rows side by side: entry `k` of the 384-entry row `[x_row | ea_row | g]`. -/
def cat {R : Nat} (x ea : Mat R 128) (g : Mat 1 128) (p : Fin R) (k : Fin 384) : EReal :=
  if h0 : k.val < 128 then x (ix2 p ⟨k.val, h0⟩)
  else if h1 : k.val < 256 then ea (ix2 p ⟨k.val - 128, by omega⟩)
  else g (ix2 0 ⟨k.val - 256, by have := k.isLt; omega⟩)

/-- A sum over 384 indices is the sum of its three 128-index slabs. -/
theorem sum_384 (f : Fin 384 → EReal) :
    ∑ k : Fin 384, f k = (∑ k : Fin 128, f (slab 0 k)) + (∑ k : Fin 128, f (slab 1 k)) + ∑ k : Fin 128, f (slab 2 k) := by
  have e1 := Fin.sum_univ_add (M := EReal) (a := 256) (b := 128) f
  have e2 := Fin.sum_univ_add (M := EReal) (a := 128) (b := 128) (fun i : Fin 256 => f (Fin.castAdd 128 i))
  rw [show (∑ k : Fin 384, f k) = ∑ k : Fin (256 + 128), f k from rfl, e1,
    show (∑ i : Fin 256, f (Fin.castAdd 128 i)) = ∑ i : Fin (128 + 128), f (Fin.castAdd 128 i) from rfl, e2]
  refine congrArg₂ (· + ·) (congrArg₂ (· + ·) ?_ ?_) ?_
  · exact Finset.sum_congr rfl fun k _ => congrArg f (Fin.ext (by simp [slab] <;> omega))
  · exact Finset.sum_congr rfl fun k _ => congrArg f (Fin.ext (by simp [slab] <;> omega))
  · exact Finset.sum_congr rfl fun k _ => congrArg f (Fin.ext (by simp [slab] <;> omega))

/-- THE LAW that joins the two programs: contracting the concatenated row once over 384 terms and then
    adding the bias is the three 128-term contractions regrouped — commutativity and associativity of
    addition on the extended reals, and the split of the index set. -/
theorem combine_cat {R : Nat} (x ea : Mat R 128) (g : Mat 1 128) (Wc : Mat 384 128) (bc : Row 128)
    (p : Fin R) (q : Fin 128) :
    (∑ k : Fin 384, cat x ea g p k * Wc (ix2 k q)) + bc (ix1 q) = combine x ea g Wc bc p q := by
  rw [sum_384]
  have c0 : ∀ k : Fin 128, cat x ea g p (slab 0 k) = x (ix2 p k) := fun k => by
    have hk := k.isLt
    unfold cat; rw [dif_pos (show (slab 0 k).val < 128 by simp [slab] <;> omega)]
    exact congrArg (fun z => x (ix2 p z)) (Fin.ext (by simp [slab] <;> omega))
  have c1 : ∀ k : Fin 128, cat x ea g p (slab 1 k) = ea (ix2 p k) := fun k => by
    have hk := k.isLt
    unfold cat
    rw [dif_neg (show ¬ (slab 1 k).val < 128 by simp [slab] <;> omega), dif_pos (show (slab 1 k).val < 256 by simp [slab] <;> omega)]
    exact congrArg (fun z => ea (ix2 p z)) (Fin.ext (by simp [slab] <;> omega))
  have c2 : ∀ k : Fin 128, cat x ea g p (slab 2 k) = g (ix2 0 k) := fun k => by
    have hk := k.isLt
    unfold cat
    rw [dif_neg (show ¬ (slab 2 k).val < 128 by simp [slab] <;> omega), dif_neg (show ¬ (slab 2 k).val < 256 by simp [slab] <;> omega)]
    exact congrArg (fun z => g (ix2 0 z)) (Fin.ext (by simp [slab] <;> omega))
  simp only [c0, c1, c2]
  unfold combine
  abel

end Cert.Mlp

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.KernelPay.lean ====
/-
  What the kernel body stores, read at an index of its 4000 x 128 output block.

  The body is, on whole blocks, a composition of three array operations:
    * `denseArr h W b = h · W + b`: the matrix unit's product of `h` (4000 x 128) by `W` (128 x 128) accumulated
      into zero, plus the one-row bias `b` broadcast down the rows;
    * `softplusArr v`: entrywise `max v 0 + log1p (exp (0 - |v - 0|))`, behind a guard `v - 0 ≠ v - 0` that is
      never taken on the extended reals;
    * `combineArr x ea W₀ W₁ b = (x · W₀ + ea · W₁) + b`.
  Changes of float format are the identity on the extended reals, so the casts to the narrow format before
  each product drop out. Row `p` of the stored block is therefore the network's `head` applied to row `p` of
  the combine layer.
-/
import proofs.«146724_j47974784696393_1_alg».proof.Proof.Gen.KernelIdeal.Skeleton
import proofs.«146724_j47974784696393_1_alg».proof.Proof.Spec
import proofs.«146724_j47974784696393_1_alg».proof.Proof.LibDot2
import Idealize.ShloMosaic.Lib.Pipeline.Value
import Idealize.ShloMosaic.Lib.ValueIdx

noncomputable section

open scoped BigOperators

namespace Cert.KernelIdeal.Pay

open Cert.KernelIdeal Cert.KernelIdeal.Gen Idealize.ShloMosaic Idealize.ShloMosaic.ValueIdx Cert.Mlp

/-- The zero the body splats: the all-zero word read as a float. -/
abbrev z32 : Ideal .f32 := Scalar.ofBits .f32 0x00000000#32

/-- `h · W + b` on a 4000-row block: the product accumulated into zero, plus the bias row broadcast. -/
def denseArr (h : FVec Ideal S4000x128 .f32) (W : Vec Ideal S128x128 .f32) (b : Vec Ideal S1x128 .f32) :
    FVec Ideal S4000x128 .f32 :=
  addf (matmul dot_S4000x128_S128x128_S4000x128_1_0_0_1_n_n none (truncf .bf16 h bitsLt_bf16_f32)
      (truncf .bf16 W bitsLt_bf16_f32) (constant S4000x128 .f32 0x00000000#32))
    (broadcastTo S4000x128 (shapeCast S1x128 b shapeCasts_S1x128_S1x128) broadcasts_S1x128_S4000x128)

/-- Entrywise softplus as the body spells it. -/
def softplusArr (v : FVec Ideal S4000x128 .f32) : FVec Ideal S4000x128 .f32 :=
  select (cmpf .one (subf v (broadcast S4000x128 z32)) (subf v (broadcast S4000x128 z32)))
    (addf v (broadcast S4000x128 z32))
    (addf (maximumf v (broadcast S4000x128 z32))
      (log1p (exp (subf (broadcast S4000x128 z32) (absf (subf v (broadcast S4000x128 z32)))))))

/-- `(x · W₀ + ea · W₁) + b` on a 4000-row block. -/
def combineArr (x ea : Vec Ideal S4000x128 .f32) (W₀ W₁ : Vec Ideal S128x128 .f32) (b : Vec Ideal S1x128 .f32) :
    FVec Ideal S4000x128 .f32 :=
  addf (addf
      (matmul dot_S4000x128_S128x128_S4000x128_1_0_0_1_n_n none (truncf .bf16 x bitsLt_bf16_f32)
        (truncf .bf16 (shapeCast S128x128 W₀ shapeCasts_S128x128_S128x128) bitsLt_bf16_f32) (constant S4000x128 .f32 0x00000000#32))
      (matmul dot_S4000x128_S128x128_S4000x128_1_0_0_1_n_n none
        (truncf .bf16 (shapeCast S4000x128 ea shapeCasts_S4000x128_S4000x128) bitsLt_bf16_f32)
        (truncf .bf16 (shapeCast S128x128 W₁ shapeCasts_S128x128_S128x128) bitsLt_bf16_f32) (constant S4000x128 .f32 0x00000000#32)))
    (broadcastTo S4000x128 (shapeCast S1x128 b shapeCasts_S1x128_S1x128) broadcasts_S1x128_S4000x128)

/-- The body's two payloads are these operations composed. -/
theorem pay2_eq (x0 x1 : Vec Ideal S4000x128 .f32) (x2 x3 : Vec Ideal S128x128 .f32) (x4 : Vec Ideal S1x128 .f32)
    (x5 : Vec Ideal S128x128 .f32) (x6 : Vec Ideal S1x128 .f32) :
    k0_pay2 x0 x1 x2 x3 x4 x5 x6 = softplusArr (denseArr (combineArr x0 x1 x2 x3 x4) x5 x6) := rfl

theorem pay1_eq (v39 : FVec Ideal S4000x128 .f32) (x7 : Vec Ideal S128x128 .f32) (x8 : Vec Ideal S1x128 .f32)
    (x9 : Vec Ideal S128x128 .f32) (x10 : Vec Ideal S1x128 .f32) :
    k0_pay1 v39 x7 x8 x9 x10 = denseArr (softplusArr (denseArr v39 x7 x8)) x9 x10 := rfl

/-! ## Each operation at an index -/

/-- The printed dimension numbers are those of the plain matrix product. -/
theorem dot_eq : dot_S4000x128_S128x128_S4000x128_1_0_0_1_n_n
    = Dot2.mmDims 4000 128 128 dot_S4000x128_S128x128_S4000x128_1_0_0_1_n_n.wf := rfl

/-- The product into zero at `(p, q)`: `∑ k, l[p, k] * r[k, q]`. -/
theorem matmul_apply {φ₁ φ₂ : FTy} (l : FVec Ideal S4000x128 φ₁) (r : FVec Ideal S128x128 φ₂) (p : Fin 4000) (q : Fin 128) :
    matmul dot_S4000x128_S128x128_S4000x128_1_0_0_1_n_n none l r (constant S4000x128 .f32 0x00000000#32) (ix2 p q)
      = ∑ k : Fin 128, l (ix2 p k) * r (ix2 k q) := by
  rw [dot_eq]
  exact Dot2.matmul_zero_mm_apply _ none l r p q

/-- The bias row broadcast down the rows, at `(p, q)`, is its entry `q`. -/
theorem bias_apply (b : Vec Ideal S1x128 .f32) (p : Fin 4000) (q : Fin 128) :
    broadcastTo S4000x128 (shapeCast S1x128 b shapeCasts_S1x128_S1x128) broadcasts_S1x128_S4000x128 (ix2 p q)
      = b (ix2 0 q) := by
  rw [shapeCast_self]
  exact broadcastTo_apply b broadcasts_S1x128_S4000x128 (ix2 p q) (ix2 0 q) (fun a => match a with
    | ⟨0, _⟩ => rfl
    | ⟨1, _⟩ => rfl)

theorem denseArr_apply (h : FVec Ideal S4000x128 .f32) (W : Vec Ideal S128x128 .f32) (b : Vec Ideal S1x128 .f32)
    (p : Fin 4000) (q : Fin 128) :
    denseArr h W b (ix2 p q) = dense W (fun q => b (ix2 0 q)) (fun k => h (ix2 p k)) q := by
  unfold denseArr
  rw [addf_apply, matmul_apply, bias_apply]
  rfl

theorem cmp_one_self (a : EReal) : Ideal.cmp .one a a = 0#1 := by simp [Ideal.cmp]

theorem softplusArr_apply (v : FVec Ideal S4000x128 .f32) (j : S4000x128.Idx) :
    softplusArr v j = softplus (v j) := by
  show Scalar.select (Ideal.cmp .one (v j - Ideal.ofBits .f32 0x00000000#32) (v j - Ideal.ofBits .f32 0x00000000#32))
      (v j + Ideal.ofBits .f32 0x00000000#32)
      (max (v j) (Ideal.ofBits .f32 0x00000000#32) + Ideal.log1p (Ideal.exp (Ideal.ofBits .f32 0x00000000#32
        - max (v j - Ideal.ofBits .f32 0x00000000#32) (-(v j - Ideal.ofBits .f32 0x00000000#32))))) = _
  rw [cmp_one_self, select_zero, Ideal.ofBits_zero_f32, sub_zero, zero_sub]
  rfl

theorem combineArr_apply (x ea : Vec Ideal S4000x128 .f32) (W₀ W₁ : Vec Ideal S128x128 .f32) (b : Vec Ideal S1x128 .f32)
    (p : Fin 4000) (q : Fin 128) :
    combineArr x ea W₀ W₁ b (ix2 p q)
      = ((∑ k : Fin 128, x (ix2 p k) * W₀ (ix2 k q)) + (∑ k : Fin 128, ea (ix2 p k) * W₁ (ix2 k q))) + b (ix2 0 q) := by
  unfold combineArr
  rw [shapeCast_self W₀, shapeCast_self ea, shapeCast_self W₁, addf_apply, addf_apply, matmul_apply, matmul_apply, bias_apply]
  rfl

/-! ## The stored block at an index -/

/-- ROW `p` OF THE STORED BLOCK: the network's head on row `p` of the combine layer, the biases read off
    their one-row blocks. -/
theorem stored_apply (x0 x1 : Vec Ideal S4000x128 .f32) (x2 x3 : Vec Ideal S128x128 .f32) (x4 : Vec Ideal S1x128 .f32)
    (x5 : Vec Ideal S128x128 .f32) (x6 : Vec Ideal S1x128 .f32) (x7 : Vec Ideal S128x128 .f32) (x8 : Vec Ideal S1x128 .f32)
    (x9 : Vec Ideal S128x128 .f32) (x10 : Vec Ideal S1x128 .f32) (p : Fin 4000) (q : Fin 128) :
    k0_pay1 (k0_pay2 x0 x1 x2 x3 x4 x5 x6) x7 x8 x9 x10 (ix2 p q)
      = head x5 (fun q => x6 (ix2 0 q)) x7 (fun q => x8 (ix2 0 q)) x9 (fun q => x10 (ix2 0 q))
          (fun q' => ((∑ k : Fin 128, x0 (ix2 p k) * x2 (ix2 k q')) + (∑ k : Fin 128, x1 (ix2 p k) * x3 (ix2 k q')))
            + x4 (ix2 0 q')) q := by
  rw [pay2_eq, pay1_eq, denseArr_apply]
  unfold head
  refine congrArg (fun f => dense x9 (fun q => x10 (ix2 0 q)) f q) (funext fun k => ?_)
  rw [softplusArr_apply, denseArr_apply]
  refine congrArg (fun f => softplus (dense x7 (fun q => x8 (ix2 0 q)) f k)) (funext fun k' => ?_)
  rw [softplusArr_apply, denseArr_apply]
  refine congrArg (fun f => softplus (dense x5 (fun q => x6 (ix2 0 q)) f k')) (funext fun k'' => ?_)
  exact combineArr_apply x0 x1 x2 x3 x4 p k''

end Cert.KernelIdeal.Pay

end
-- ==== Proof.KernelBlocks.lean ====
/-
  From the kernel's blocks to its whole output array.

  The grid has 25 points; at point `t` the pipeline stages rows `4000 t … 4000 t + 3999` of the node
  features and of the aggregated edge features, the weights and biases whole (their block index is `(0, 0)`
  at every point), and writes back rows `4000 t … 4000 t + 3999` of the output. What point `t` writes back is
  the stored block of the body (its entry `(p, q)` is the network's head on row `p` of the combine layer of
  the staged blocks), and row `p` of a staged block is row `4000 t + p` of its array: so point `t` writes
  block `t` of ONE function `net` of the staged arrays. The 25 blocks tile the 100000 rows (row `r` is in
  block `r / 4000`), hence after the run the output array is `net` of the staged arrays.
-/
import proofs.«146724_j47974784696393_1_alg».proof.Proof.Gen.KernelIdeal.Value
import proofs.«146724_j47974784696393_1_alg».proof.Proof.KernelPay
import Idealize.ShloMosaic.Lib.Pipeline.Value

noncomputable section

open scoped BigOperators

namespace Cert.KernelIdeal.Blocks

open Cert.KernelIdeal Cert.KernelIdeal.Gen Cert.KernelIdeal.Value Cert.KernelIdeal.Pay
open Idealize.ShloMosaic Idealize.ShloMosaic.TcCoe Idealize.SL.Sem Idealize.ShloMosaic.ValueIdx Cert.Mlp
open Idealize.ShloMosaic.Pipeline (Dat)

variable (m : (ℓ : Loc nD τ sig) → Buf (Elt Ideal) ℓ) (ρ : Dev nD → PrngReg)

/-- The network as a function of the eleven staged arrays: node features `a0`, aggregated edge features
    `a1`, the two weight slabs `a2`, `a3` and the folded bias row `a4` of the combine layer, then weight and
    one-row bias of each of the three dense layers. -/
def net (a0 a1 : Mat 100000 128) (a2 a3 : Mat 128 128) (a4 : Mat 1 128) (a5 : Mat 128 128) (a6 : Mat 1 128)
    (a7 : Mat 128 128) (a8 : Mat 1 128) (a9 : Mat 128 128) (a10 : Mat 1 128) : Mat 100000 128 :=
  fun j => head a5 (fun q => a6 (ix2 0 q)) a7 (fun q => a8 (ix2 0 q)) a9 (fun q => a10 (ix2 0 q))
    (fun q' => ((∑ k : Fin 128, a0 (ix2 (j 0) k) * a2 (ix2 k q')) + (∑ k : Fin 128, a1 (ix2 (j 0) k) * a3 (ix2 k q')))
      + a4 (ix2 0 q')) (j 1)

theorem hz : (![0, 0] : Fin 2 → Nat) = fun _ => 0 := funext fun a => by fin_cases a <;> rfl

/-- The printed index maps over the grid: the two row-blocked inputs and the output are at block `(t, 0)`,
    every other input at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- Row `p` of block `t` is row `4000 t + p` of the array. -/
abbrev row (t : Fin cfg0.N) (p : Fin 4000) : Fin 100000 :=
  ⟨4000 * t.val + p.val, by have ht : t.val < 25 := t.isLt; have hp := p.isLt; omega⟩

/-! ## The staged blocks, read off their arrays -/

theorem blk0 (c : Dev nD) (t : Fin cfg0.N) (p : Fin 4000) (k : Fin 128) :
    (iblk m c 0 t : S4000x128.Idx → EReal) (ix2 p k) = (V m c main_arg0 : S100000x128.Idx → EReal) (ix2 (row t p) k) := by
  show (V m c main_arg0 : S100000x128.Idx → EReal) (((cfg0.win 0).blk t).view.emb (ix2 p k)) = _
  refine congrArg (V m c main_arg0 : S100000x128.Idx → EReal) (funext fun a => Fin.ext ?_)
  obtain ⟨e0, e1, -⟩ := idx_facts t
  match a with
  | ⟨0, _⟩ => show win0_0.index t (0 : Fin 2) * 4000 + 1 * p.val = 4000 * t.val + p.val; omega
  | ⟨1, _⟩ => show win0_0.index t (1 : Fin 2) * 128 + 1 * k.val = k.val; omega

theorem blk1 (c : Dev nD) (t : Fin cfg0.N) (p : Fin 4000) (k : Fin 128) :
    (iblk m c 1 t : S4000x128.Idx → EReal) (ix2 p k) = (V m c main_v9 : S100000x128.Idx → EReal) (ix2 (row t p) k) := by
  show (V m c main_v9 : S100000x128.Idx → EReal) (((cfg0.win 1).blk t).view.emb (ix2 p k)) = _
  refine congrArg (V m c main_v9 : S100000x128.Idx → EReal) (funext fun a => Fin.ext ?_)
  obtain ⟨-, -, e0, e1, -⟩ := idx_facts t
  match a with
  | ⟨0, _⟩ => show win0_1.index t (0 : Fin 2) * 4000 + 1 * p.val = 4000 * t.val + p.val; omega
  | ⟨1, _⟩ => show win0_1.index t (1 : Fin 2) * 128 + 1 * k.val = k.val; omega

/-- The output's block `t`, embedded: local `(p, q)` is the array's `(4000 t + p, q)`. -/
theorem emb11 (t : Fin cfg0.N) (p : Fin 4000) (q : Fin 128) :
    ((cfg0.win 11).blk t).view.emb (ix2 p q) = (ix2 (row t p) q : S100000x128.Idx) := by
  refine funext fun a => Fin.ext ?_
  obtain ⟨-, -, -, -, e0, e1, -⟩ := idx_facts t
  match a with
  | ⟨0, _⟩ => show win0_11.index t (0 : Fin 2) * 4000 + 1 * p.val = 4000 * t.val + p.val; omega
  | ⟨1, _⟩ => show win0_11.index t (1 : Fin 2) * 128 + 1 * q.val = q.val; omega

/-- A window whose block is the whole array stages the array itself, at every point. -/
theorem blk2 (c : Dev nD) (t : Fin cfg0.N) : (iblk m c 2 t : S128x128.Idx → EReal) = (V m c main_v10 : S128x128.Idx → EReal) := by
  funext y
  show (V m c main_v10 : S128x128.Idx → EReal) (((cfg0.win 2).blk t).view.emb y) = _
  refine congrArg (V m c main_v10 : S128x128.Idx → EReal) (funext fun a => Fin.ext ?_)
  obtain ⟨-, -, -, -, -, -, e0, e1, -⟩ := idx_facts t
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem blk3 (c : Dev nD) (t : Fin cfg0.N) : (iblk m c 3 t : S128x128.Idx → EReal) = (V m c main_v11 : S128x128.Idx → EReal) := by
  funext y
  show (V m c main_v11 : S128x128.Idx → EReal) (((cfg0.win 3).blk t).view.emb y) = _
  refine congrArg (V m c main_v11 : S128x128.Idx → EReal) (funext fun a => Fin.ext ?_)
  obtain ⟨-, -, -, -, -, -, -, -, e0, e1, -⟩ := idx_facts t
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blk4 (c : Dev nD) (t : Fin cfg0.N) : (iblk m c 4 t : S1x128.Idx → EReal) = (V m c main_v15 : S1x128.Idx → EReal) := by
  funext y
  show (V m c main_v15 : S1x128.Idx → EReal) (((cfg0.win 4).blk t).view.emb y) = _
  refine congrArg (V m c main_v15 : S1x128.Idx → EReal) (funext fun a => Fin.ext ?_)
  obtain ⟨-, -, -, -, -, -, -, -, -, -, e0, e1, -⟩ := idx_facts t
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem blk5 (c : Dev nD) (t : Fin cfg0.N) : (iblk m c 5 t : S128x128.Idx → EReal) = (V m c main_arg6 : S128x128.Idx → EReal) := by
  funext y
  show (V m c main_arg6 : S128x128.Idx → EReal) (((cfg0.win 5).blk t).view.emb y) = _
  refine congrArg (V m c main_arg6 : S128x128.Idx → EReal) (funext fun a => Fin.ext ?_)
  obtain ⟨-, -, -, -, -, -, -, -, -, -, -, -, e0, e1, -⟩ := idx_facts t
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem blk6 (c : Dev nD) (t : Fin cfg0.N) : (iblk m c 6 t : S1x128.Idx → EReal) = (V m c main_v16 : S1x128.Idx → EReal) := by
  funext y
  show (V m c main_v16 : S1x128.Idx → EReal) (((cfg0.win 6).blk t).view.emb y) = _
  refine congrArg (V m c main_v16 : S1x128.Idx → EReal) (funext fun a => Fin.ext ?_)
  obtain ⟨-, -, -, -, -, -, -, -, -, -, -, -, -, -, e0, e1, -⟩ := idx_facts t
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem blk7 (c : Dev nD) (t : Fin cfg0.N) : (iblk m c 7 t : S128x128.Idx → EReal) = (V m c main_arg8 : S128x128.Idx → EReal) := by
  funext y
  show (V m c main_arg8 : S128x128.Idx → EReal) (((cfg0.win 7).blk t).view.emb y) = _
  refine congrArg (V m c main_arg8 : S128x128.Idx → EReal) (funext fun a => Fin.ext ?_)
  obtain ⟨-, -, -, -, -, -, -, -, -, -, -, -, -, -, -, -, e0, e1, -⟩ := idx_facts t
  match a with
  | ⟨0, _⟩ => show win0_7.index t (0 : Fin 2) * 128 + 1 * (y 0).val = (y 0).val; omega
  | ⟨1, _⟩ => show win0_7.index t (1 : Fin 2) * 128 + 1 * (y 1).val = (y 1).val; omega

theorem blk8 (c : Dev nD) (t : Fin cfg0.N) : (iblk m c 8 t : S1x128.Idx → EReal) = (V m c main_v17 : S1x128.Idx → EReal) := by
  funext y
  show (V m c main_v17 : S1x128.Idx → EReal) (((cfg0.win 8).blk t).view.emb y) = _
  refine congrArg (V m c main_v17 : S1x128.Idx → EReal) (funext fun a => Fin.ext ?_)
  obtain ⟨-, -, -, -, -, -, -, -, -, -, -, -, -, -, -, -, -, -, e0, e1, -⟩ := idx_facts t
  match a with
  | ⟨0, _⟩ => show win0_8.index t (0 : Fin 2) * 1 + 1 * (y 0).val = (y 0).val; omega
  | ⟨1, _⟩ => show win0_8.index t (1 : Fin 2) * 128 + 1 * (y 1).val = (y 1).val; omega

theorem blk9 (c : Dev nD) (t : Fin cfg0.N) : (iblk m c 9 t : S128x128.Idx → EReal) = (V m c main_arg10 : S128x128.Idx → EReal) := by
  funext y
  show (V m c main_arg10 : S128x128.Idx → EReal) (((cfg0.win 9).blk t).view.emb y) = _
  refine congrArg (V m c main_arg10 : S128x128.Idx → EReal) (funext fun a => Fin.ext ?_)
  obtain ⟨-, -, -, -, -, -, -, -, -, -, -, -, -, -, -, -, -, -, -, -, e0, e1, -⟩ := idx_facts t
  match a with
  | ⟨0, _⟩ => show win0_9.index t (0 : Fin 2) * 128 + 1 * (y 0).val = (y 0).val; omega
  | ⟨1, _⟩ => show win0_9.index t (1 : Fin 2) * 128 + 1 * (y 1).val = (y 1).val; omega

theorem blk10 (c : Dev nD) (t : Fin cfg0.N) : (iblk m c 10 t : S1x128.Idx → EReal) = (V m c main_v18 : S1x128.Idx → EReal) := by
  funext y
  show (V m c main_v18 : S1x128.Idx → EReal) (((cfg0.win 10).blk t).view.emb y) = _
  refine congrArg (V m c main_v18 : S1x128.Idx → EReal) (funext fun a => Fin.ext ?_)
  obtain ⟨-, -, -, -, -, -, -, -, -, -, -, -, -, -, -, -, -, -, -, -, -, -, e0, e1⟩ := idx_facts t
  match a with
  | ⟨0, _⟩ => show win0_10.index t (0 : Fin 2) * 1 + 1 * (y 0).val = (y 0).val; omega
  | ⟨1, _⟩ => show win0_10.index t (1 : Fin 2) * 128 + 1 * (y 1).val = (y 1).val; omega

/-! ## What a point writes back -/

/-- The staged arrays, as the region finds them. -/
abbrev netV (c : Dev nD) : Mat 100000 128 :=
  net (V m c main_arg0) (V m c main_v9) (V m c main_v10) (V m c main_v11) (V m c main_v15) (V m c main_arg6)
    (V m c main_v16) (V m c main_arg8) (V m c main_v17) (V m c main_arg10) (V m c main_v18)

/-- WHAT POINT `t` WRITES BACK is block `t` of `net` of the staged arrays. -/
theorem flushed_eq (c : Dev nD) (t : Fin cfg0.N) :
    (dats m 0 c).flushed 11 t = ((cfg0.win 11).blk t).view.read (Elt Ideal) (netV m c) := by
  rw [flushed11]
  unfold out0_11
  rw [View.canon_unit_zero hz]
  simp only [View.ld_unit_zero (S := S4000x128) hz, View.ld_unit_zero (S := S128x128) hz, View.ld_unit_zero (S := S1x128) hz]
  funext y
  obtain ⟨p, q, rfl⟩ : ∃ (p : Fin 4000) (q : Fin 128), y = ix2 p q := ⟨y 0, y 1, eq_ix2 y⟩
  show k0_pay1 (k0_pay2 (iblk m c 0 t) (iblk m c 1 t) (iblk m c 2 t) (iblk m c 3 t) (iblk m c 4 t) (iblk m c 5 t) (iblk m c 6 t))
      (iblk m c 7 t) (iblk m c 8 t) (iblk m c 9 t) (iblk m c 10 t) (ix2 p q)
    = netV m c (((cfg0.win 11).blk t).view.emb (ix2 p q))
  refine (stored_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) p q).trans ?_
  rw [emb11 t p q]
  simp only [blk0, blk1, blk2, blk3, blk4, blk5, blk6, blk7, blk8, blk9, blk10]
  rfl

/-! ## The cover and the whole array -/

/-- An index of the array is in point `t`'s block iff each coordinate is in the block's range on its axis. -/
theorem mem_blk (t : Fin cfg0.N) (i : S100000x128.Idx) :
    i ∈ ((cfg0.win 11).blk t).view.set ↔ ∀ a : Fin 2, win0_11.index t a * S4000x128.size a ≤ (i a).val
      ∧ (i a).val < win0_11.index t a * S4000x128.size a + S4000x128.size a := by
  show i ∈ ((View.whole main_v19).slice (win0_11.rect t)).set ↔ _
  rw [View.set_slice_whole, Rect.mem_set_unit]
  exact Iff.rfl

/-- Every row is in the block of the point `row / 4000`: the 25 blocks tile the array. -/
theorem cover (i : S100000x128.Idx) :
    ∃ t : Fin cfg0.N, (cfg0.win 11).flush t = true ∧ i ∈ ((cfg0.win 11).blk t).view.set := by
  have hi0 : (i 0).val < 100000 := (i 0).isLt
  have hi1 : (i 1).val < 128 := (i 1).isLt
  let t : Fin cfg0.N := ⟨(i 0).val / 4000, by show (i 0).val / 4000 < 25; omega⟩
  refine ⟨t, flush0_11 t, ?_⟩
  rw [mem_blk]
  obtain ⟨-, -, -, -, e0, e1, -⟩ := idx_facts t
  have ht : t.val = (i 0).val / 4000 := rfl
  intro a
  match a with
  | ⟨0, _⟩ => show win0_11.index t (0 : Fin 2) * 4000 ≤ (i 0).val ∧ (i 0).val < win0_11.index t (0 : Fin 2) * 4000 + 4000; omega
  | ⟨1, _⟩ => show win0_11.index t (1 : Fin 2) * 128 ≤ (i 1).val ∧ (i 1).val < win0_11.index t (1 : Fin 2) * 128 + 128; omega

/-- THE OUTPUT ARRAY after the run is `net` of the staged arrays. -/
theorem final (c : Dev nD) : (dats m 0 c).arrAt 11 cfg0.N = netV m c :=
  (dats m 0 c).arrAt_eq_of_cover 11 (netV m c) (fun t _ => flushed_eq m c t) cover

end Cert.KernelIdeal.Blocks

end
-- ==== Proof.KernelHost.lean ====
/-
  The arrays the kernel's windows stage, in terms of the arguments, and the kernel's result as the
  specification's network.

  Before the call, @main slices the 384 x 128 combine weight into its three 128-row slabs, contracts the
  global row with the third slab and adds it to the combine bias (the global term is the same for every
  node, so it is folded into the bias once), and reshapes each bias `[128]` to one row `[1, 128]`. Read at an
  index: slab `j` at `(k, q)` is the weight at `(128 j + k, q)`; the folded bias at `(0, q)` is
  `bc[q] + ∑ k, g[0, k] * Wc[256 + k, q]`; a reshaped bias at `(0, q)` is the bias at `q`. With these the
  function `net` of the staged arrays is the specification's `mlp` of the arguments and of the
  scatter-added edge features (kept as the array the region finds, whatever it holds).
-/
import proofs.«146724_j47974784696393_1_alg».proof.Proof.KernelBlocks
import Idealize.ShloMosaic.Lib.StableHlo.Run

noncomputable section

open scoped BigOperators

namespace Cert.KernelIdeal.HostSide

open Cert.KernelIdeal Cert.KernelIdeal.Gen Cert.KernelIdeal.Value Cert.KernelIdeal.Blocks
open Idealize.ShloMosaic Idealize.ShloMosaic.TcCoe Idealize.SL.Sem Idealize.ShloMosaic.ValueIdx Cert.Mlp
open Idealize.ShloMosaic.StableHlo

variable (m : (ℓ : Loc nD τ sig) → Buf (Elt Ideal) ℓ) (ρ : Dev nD → PrngReg)

/-! ## The arguments as launched, and the staged arrays as the region finds them, as plain arrays -/

abbrev xA (c : Dev nD) : Mat 100000 128 := m ((c.tc : Thread nD τ).loc main_arg0)
abbrev gA (c : Dev nD) : Mat 1 128 := m ((c.tc : Thread nD τ).loc main_arg3)
abbrev WcA (c : Dev nD) : Mat 384 128 := m ((c.tc : Thread nD τ).loc main_arg4)
abbrev bcA (c : Dev nD) : Row 128 := m ((c.tc : Thread nD τ).loc main_arg5)
abbrev W1A (c : Dev nD) : Mat 128 128 := m ((c.tc : Thread nD τ).loc main_arg6)
abbrev b1A (c : Dev nD) : Row 128 := m ((c.tc : Thread nD τ).loc main_arg7)
abbrev W2A (c : Dev nD) : Mat 128 128 := m ((c.tc : Thread nD τ).loc main_arg8)
abbrev b2A (c : Dev nD) : Row 128 := m ((c.tc : Thread nD τ).loc main_arg9)
abbrev W3A (c : Dev nD) : Mat 128 128 := m ((c.tc : Thread nD τ).loc main_arg10)
abbrev b3A (c : Dev nD) : Row 128 := m ((c.tc : Thread nD τ).loc main_arg11)
/-- The aggregated edge features, as the region finds them. -/
abbrev eaV (c : Dev nD) : Mat 100000 128 := V m c main_v9
abbrev xV (c : Dev nD) : Mat 100000 128 := V m c main_arg0
abbrev W1V (c : Dev nD) : Mat 128 128 := V m c main_arg6
abbrev W2V (c : Dev nD) : Mat 128 128 := V m c main_arg8
abbrev W3V (c : Dev nD) : Mat 128 128 := V m c main_arg10
abbrev slab0V (c : Dev nD) : Mat 128 128 := V m c main_v10
abbrev slab1V (c : Dev nD) : Mat 128 128 := V m c main_v11
abbrev foldedV (c : Dev nD) : Mat 1 128 := V m c main_v15
abbrev b1V (c : Dev nD) : Mat 1 128 := V m c main_v16
abbrev b2V (c : Dev nD) : Mat 1 128 := V m c main_v17
abbrev b3V (c : Dev nD) : Mat 1 128 := V m c main_v18

/-! ## The staged arrays as the host operations leave them -/

theorem slab0V_eq (c : Dev nD) : slab0V m c
    = extractStridedSlice S128x128 ![0, 0] (WcA m c) slices_S384x128_S128x128_0_0 := by
  unfold slab0V; dsimp only [Gen.V, Gen.hostOps0]; after_results

theorem slab1V_eq (c : Dev nD) : slab1V m c
    = extractStridedSlice S128x128 ![128, 0] (WcA m c) slices_S384x128_S128x128_128_0 := by
  unfold slab1V; dsimp only [Gen.V, Gen.hostOps0]; after_results

theorem foldedV_eq (c : Dev nD) : foldedV m c
    = addf (F := Ideal) (φ := .f32) (broadcastInDim S1x128 ![1] bcast_S128_S1x128_1 (bcA m c))
        (Host.dotGeneral (F := Ideal) (φ₁ := .f32) (φ₂ := .f32) dot_S1x128_S128x128_S1x128_1_0_0_1_n_n none (gA m c)
          (extractStridedSlice S128x128 ![256, 0] (WcA m c) slices_S384x128_S128x128_256_0)) := by
  unfold foldedV; dsimp only [Gen.V, Gen.hostOps0]; after_results

theorem b1V_eq (c : Dev nD) : b1V m c = broadcastInDim S1x128 ![1] bcast_S128_S1x128_1 (b1A m c) := by
  unfold b1V; dsimp only [Gen.V, Gen.hostOps0]; after_results

theorem b2V_eq (c : Dev nD) : b2V m c = broadcastInDim S1x128 ![1] bcast_S128_S1x128_1 (b2A m c) := by
  unfold b2V; dsimp only [Gen.V, Gen.hostOps0]; after_results

theorem b3V_eq (c : Dev nD) : b3V m c = broadcastInDim S1x128 ![1] bcast_S128_S1x128_1 (b3A m c) := by
  unfold b3V; dsimp only [Gen.V, Gen.hostOps0]; after_results

/-! ## The host operations at an index -/

/-- A 128-row slab of the combine weight: entry `(k, q)` of the slice at row offset `128 j`. -/
theorem slab_apply (Wc : Mat 384 128) (j : Fin 3) (off : Fin 2 → Nat) (h : S384x128.Slices off S128x128)
    (hoff : off = ![128 * j.val, 0]) (k q : Fin 128) :
    extractStridedSlice S128x128 off Wc h (ix2 k q) = Wc (ix2 (slab j k) q) := by
  subst hoff
  exact extractStridedSlice_apply _ Wc h (ix2 k q) (ix2 (slab j k) q) (fun a => by
    match a with
    | ⟨0, _⟩ => rfl
    | ⟨1, _⟩ => show q.val = 0 + q.val; omega)

/-- A bias reshaped to one row, at `(0, q)`. -/
theorem biasRow_apply (b : Row 128) (q : Fin 128) :
    broadcastInDim S1x128 ![1] bcast_S128_S1x128_1 b (ix2 0 q) = b (ix1 q) :=
  broadcastInDim_apply _ bcast_S128_S1x128_1 b (ix2 0 q) (ix1 q) (fun a => by
    match a with
    | ⟨0, _⟩ => show q.val = if (128 : Nat) = 1 then 0 else q.val; rw [if_neg (by decide)])

theorem dot1_eq : dot_S1x128_S128x128_S1x128_1_0_0_1_n_n
    = Dot2.mmDims 1 128 128 dot_S1x128_S128x128_S1x128_1_0_0_1_n_n.wf := rfl

/-- The host's product of the one global row by a 128 x 128 slab, at `(0, q)`. -/
theorem dot1_apply (l : Mat 1 128) (r : Mat 128 128) (q : Fin 128) :
    Host.dotGeneral (F := Ideal) (φ₁ := .f32) (φ₂ := .f32) dot_S1x128_S128x128_S1x128_1_0_0_1_n_n none l r (ix2 0 q)
      = ∑ k : Fin 128, l (ix2 0 k) * r (ix2 k q) := by
  rw [dot1_eq]
  exact Dot2.host_dotGeneral_mm_apply _ none l r 0 q

/-- The folded bias at `(0, q)`: the combine bias plus the global row's contraction with the third slab. -/
theorem foldedV_apply (c : Dev nD) (q : Fin 128) :
    foldedV m c (ix2 0 q) = bcA m c (ix1 q) + ∑ k : Fin 128, gA m c (ix2 0 k) * WcA m c (ix2 (slab 2 k) q) := by
  rw [foldedV_eq, addf_apply, biasRow_apply, dot1_apply]
  refine congrArg (fun s => bcA m c (ix1 q) + s) (Finset.sum_congr rfl fun k _ => ?_)
  exact congrArg (fun z => gA m c (ix2 0 k) * z)
    (slab_apply (WcA m c) 2 ![256, 0] slices_S384x128_S128x128_256_0 rfl k q)

/-! ## The kernel's result -/

/-- The network of the arguments and of the aggregated edge features the region finds. -/
abbrev result (c : Dev nD) : Mat 100000 128 :=
  mlp (xA m c) (eaV m c) (gA m c) (WcA m c) (bcA m c) (W1A m c) (b1A m c) (W2A m c) (b2A m c) (W3A m c) (b3A m c)

/-- THE KERNEL'S OUTPUT ARRAY after the run: `net` of the staged arrays is the specification's network. -/
theorem net_eq_mlp (c : Dev nD) : netV m c = result m c := by
  funext j
  obtain ⟨p, q, rfl⟩ : ∃ (p : Fin 100000) (q : Fin 128), j = ix2 p q := ⟨j 0, j 1, eq_ix2 j⟩
  have hb1 : (fun q => b1V m c (ix2 0 q)) = fun q => b1A m c (ix1 q) :=
    funext fun q => by rw [b1V_eq]; exact biasRow_apply _ q
  have hb2 : (fun q => b2V m c (ix2 0 q)) = fun q => b2A m c (ix1 q) :=
    funext fun q => by rw [b2V_eq]; exact biasRow_apply _ q
  have hb3 : (fun q => b3V m c (ix2 0 q)) = fun q => b3A m c (ix1 q) :=
    funext fun q => by rw [b3V_eq]; exact biasRow_apply _ q
  have hx : xV m c = xA m c := V_main_arg0 m c
  have hc : (fun q' => ((∑ k : Fin 128, xV m c (ix2 p k) * slab0V m c (ix2 k q'))
        + (∑ k : Fin 128, eaV m c (ix2 p k) * slab1V m c (ix2 k q'))) + foldedV m c (ix2 0 q'))
      = combine (xA m c) (eaV m c) (gA m c) (WcA m c) (bcA m c) p :=
    funext fun q' => by
      rw [foldedV_apply, slab0V_eq, slab1V_eq, hx]
      unfold combine
      refine congrArg₂ (· + ·) (congrArg₂ (· + ·) (Finset.sum_congr rfl fun k _ => ?_) (Finset.sum_congr rfl fun k _ => ?_)) rfl
      · exact congrArg (fun z => xA m c (ix2 p k) * z)
          (slab_apply (WcA m c) 0 ![0, 0] slices_S384x128_S128x128_0_0 rfl k q')
      · exact congrArg (fun z => eaV m c (ix2 p k) * z)
          (slab_apply (WcA m c) 1 ![128, 0] slices_S384x128_S128x128_128_0 rfl k q')
  have h6 : W1V m c = W1A m c := V_main_arg6 m c
  have h8 : W2V m c = W2A m c := V_main_arg8 m c
  have h10 : W3V m c = W3A m c := V_main_arg10 m c
  show head (W1V m c) (fun q => b1V m c (ix2 0 q)) (W2V m c) (fun q => b2V m c (ix2 0 q))
      (W3V m c) (fun q => b3V m c (ix2 0 q))
      (fun q' => ((∑ k : Fin 128, xV m c (ix2 p k) * slab0V m c (ix2 k q'))
        + (∑ k : Fin 128, eaV m c (ix2 p k) * slab1V m c (ix2 k q'))) + foldedV m c (ix2 0 q')) q
    = head (W1A m c) (fun q => b1A m c (ix1 q)) (W2A m c) (fun q => b2A m c (ix1 q)) (W3A m c) (fun q => b3A m c (ix1 q))
        (combine (xA m c) (eaV m c) (gA m c) (WcA m c) (bcA m c) p) q
  rw [hb1, hb2, hb3, hc, h6, h8, h10]

/-- The kernel's run, read: the result array is the network of the arguments, the arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨((h c).1.trans (final m c)).trans (net_eq_mlp m c), (h c).2⟩)
    (run_blocks m ρ)

end Cert.KernelIdeal.HostSide

end
-- ==== Proof.RefStages.lean ====
/-
  The reference program, stage by stage, read at an index of its 100000 x 128 arrays.

  Its @main is: scatter-add the edge features into `ea`; concatenate `[x | ea | g repeated]` into a
  100000 x 384 array and contract it once with the 384 x 128 combine weight, add the bias; then three dense
  layers with a softplus after the first two. Every stage is row-wise: entry `(p, q)` of a stage reads only
  row `p` of the stage before. Read that way the stages are the specification's `combine` (through the law
  `combine_cat` that splits the 384-term contraction), `dense` and `softplus`.

  The softplus is spelt `select (d ≠ d) (v + 0) (max v 0 + log1p (exp (-|d|)))` with `d = v - 0`; on the
  extended reals nothing differs from itself, so the guard is never taken.
-/
import proofs.«146724_j47974784696393_1_alg».proof.Proof.RefRead
import proofs.«146724_j47974784696393_1_alg».proof.Proof.Spec
import Idealize.ShloMosaic.Lib.Pipeline.Value
import Idealize.ShloMosaic.Lib.ValueIdx

noncomputable section

open scoped BigOperators

namespace Cert.ReferenceIdeal.Stages

open Cert.ReferenceIdeal Cert.ReferenceIdeal.Gen Cert.ReferenceIdeal.ReadP Idealize.ShloMosaic Idealize.ShloMosaic.ValueIdx Cert.Mlp

variable (x0 : (⟨S100000x128, .f32⟩ : BufTy).Contents (Elt Ideal)) (x1 : (⟨S2x600000, .i32⟩ : BufTy).Contents (Elt Ideal)) (x2 : (⟨S600000x128, .f32⟩ : BufTy).Contents (Elt Ideal))
  (x3 : (⟨S1x128, .f32⟩ : BufTy).Contents (Elt Ideal)) (x4 : (⟨S384x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))

/-! ## The softplus -/

theorem cmp_une_self (a : EReal) : Ideal.cmp .une a a = 0#1 := by simp [Ideal.cmp]

/-- The reference's spelling of softplus, on one extended real. -/
theorem softplus_spelt (v : EReal) :
    Scalar.select (FloatOps.cmpf .une (FloatOps.subf v (FloatOps.ofBits (F := Ideal) .f32 0x00000000#32)) (FloatOps.subf v (FloatOps.ofBits (F := Ideal) .f32 0x00000000#32)))
      (FloatOps.addf v (FloatOps.ofBits (F := Ideal) .f32 0x00000000#32))
      (FloatOps.addf (FloatOps.maximumf v (FloatOps.ofBits (F := Ideal) .f32 0x00000000#32))
        (FloatOps.hostUnary .log1p (FloatOps.hostUnary .exp (FloatOps.hostNegf (FloatOps.hostAbsf
          (FloatOps.subf v (FloatOps.ofBits (F := Ideal) .f32 0x00000000#32)))))))
      = softplus v := by
  show Scalar.select (Ideal.cmp .une (v - Ideal.ofBits .f32 0x00000000#32) (v - Ideal.ofBits .f32 0x00000000#32))
      (v + Ideal.ofBits .f32 0x00000000#32)
      (max v (Ideal.ofBits .f32 0x00000000#32) + Ideal.log1p (Ideal.exp
        (-(max (v - Ideal.ofBits .f32 0x00000000#32) (-(v - Ideal.ofBits .f32 0x00000000#32)))))) = _
  rw [cmp_une_self, select_zero, Ideal.ofBits_zero_f32, sub_zero]
  rfl

/-- The first softplus: entrywise on the first dense layer's result. -/
theorem v21_apply (i : S100000x128.Idx) :
    val_main_v21 (F := Ideal) x0 x1 x2 x3 x4 x5 x6 x7 i = softplus (val_main_v20 (F := Ideal) x0 x1 x2 x3 x4 x5 x6 x7 i) := by
  simp only [val_main_v21_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply]
  exact softplus_spelt _

/-- The second softplus: entrywise on the second dense layer's result. -/
theorem v26_apply (i : S100000x128.Idx) :
    val_main_v26 (F := Ideal) x0 x1 x2 x3 x4 x5 x6 x7 x8 x9 i
      = softplus (val_main_v25 (F := Ideal) x0 x1 x2 x3 x4 x5 x6 x7 x8 x9 i) := by
  simp only [val_main_v26_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply]
  exact softplus_spelt _

/-! ## The dense layers -/

/-- The first dense layer at `(p, q)`: `dense W1 b1` of row `p` of the combine layer. -/
theorem v20_apply (p : Fin 100000) (q : Fin 128) :
    val_main_v20 (F := Ideal) x0 x1 x2 x3 x4 x5 x6 x7 (ix2 p q)
      = dense x6 (fun q => x7 (ix1 q)) (fun k => val_main_v16 (F := Ideal) x0 x1 x2 x3 x4 x5 (ix2 p k)) q := by
  rw [val_main_v20_apply, val_main_v17_apply, val_main_v19_apply, val_main_v18_apply]
  have hl : ∀ k : Fin 128, lidx_main_v17 (ix2 p q) k = ix2 p k := fun k => funext fun a => by
    match a with | ⟨0, _⟩ => rfl | ⟨1, _⟩ => rfl
  have hr : ∀ k : Fin 128, ridx_main_v17 (ix2 p q) k = ix2 k q := fun k => funext fun a => by
    match a with | ⟨0, _⟩ => rfl | ⟨1, _⟩ => rfl
  have hb : idx_main_v18 (idx_main_v19 (ix2 p q)) = ix1 q := funext fun a => by
    match a with | ⟨0, _⟩ => rfl
  simp only [hl, hr, hb]
  rfl

/-- The second dense layer at `(p, q)`. -/
theorem v25_apply (p : Fin 100000) (q : Fin 128) :
    val_main_v25 (F := Ideal) x0 x1 x2 x3 x4 x5 x6 x7 x8 x9 (ix2 p q)
      = dense x8 (fun q => x9 (ix1 q)) (fun k => val_main_v21 (F := Ideal) x0 x1 x2 x3 x4 x5 x6 x7 (ix2 p k)) q := by
  rw [val_main_v25_apply, val_main_v22_apply, val_main_v24_apply, val_main_v23_apply]
  have hl : ∀ k : Fin 128, lidx_main_v22 (ix2 p q) k = ix2 p k := fun k => funext fun a => by
    match a with | ⟨0, _⟩ => rfl | ⟨1, _⟩ => rfl
  have hr : ∀ k : Fin 128, ridx_main_v22 (ix2 p q) k = ix2 k q := fun k => funext fun a => by
    match a with | ⟨0, _⟩ => rfl | ⟨1, _⟩ => rfl
  have hb : idx_main_v23 (idx_main_v24 (ix2 p q)) = ix1 q := funext fun a => by
    match a with | ⟨0, _⟩ => rfl
  simp only [hl, hr, hb]
  rfl

/-- The third dense layer, the result, at `(p, q)`. -/
theorem v30_apply (p : Fin 100000) (q : Fin 128) :
    val_main_v30 (F := Ideal) x0 x1 x2 x3 x4 x5 x6 x7 x8 x9 x10 x11 (ix2 p q)
      = dense x10 (fun q => x11 (ix1 q)) (fun k => val_main_v26 (F := Ideal) x0 x1 x2 x3 x4 x5 x6 x7 x8 x9 (ix2 p k)) q := by
  rw [val_main_v30_apply, val_main_v27_apply, val_main_v29_apply, val_main_v28_apply]
  have hl : ∀ k : Fin 128, lidx_main_v27 (ix2 p q) k = ix2 p k := fun k => funext fun a => by
    match a with | ⟨0, _⟩ => rfl | ⟨1, _⟩ => rfl
  have hr : ∀ k : Fin 128, ridx_main_v27 (ix2 p q) k = ix2 k q := fun k => funext fun a => by
    match a with | ⟨0, _⟩ => rfl | ⟨1, _⟩ => rfl
  have hb : idx_main_v28 (idx_main_v29 (ix2 p q)) = ix1 q := funext fun a => by
    match a with | ⟨0, _⟩ => rfl
  simp only [hl, hr, hb]
  rfl

/-! ## The combine layer -/

/-- The global row repeated down the rows: entry `(p, k)` is `g[0, k]`. -/
theorem v11_apply (p : Fin 100000) (k : Fin 128) : val_main_v11 (F := Ideal) x3 (ix2 p k) = x3 (ix2 0 k) := by
  rw [val_main_v11_apply, val_main_v10_apply]
  refine congrArg x3 (funext fun a => ?_)
  match a with
  | ⟨0, _⟩ => rfl
  | ⟨1, _⟩ =>
    apply Fin.ext
    have hk := k.isLt
    show (p.val * 128 + k.val) % 128 = k.val
    omega

/-- The concatenation at `(p, k)`: the three rows side by side. -/
theorem v12_apply (p : Fin 100000) (k : Fin 384) :
    val_main_v12 (F := Ideal) x0 x1 x2 x3 (ix2 p k) = cat x0 (val_main_v9 (F := Ideal) x1 x2) x3 p k := by
  unfold val_main_v12 cat
  have hk := k.isLt
  by_cases h0 : k.val < 128
  · rw [dif_pos h0]
    exact concatenate_apply_piece (1 : Fin S100000x384.rank) _ _ (ix2 p k) 0 (by show (0 : Nat) < 3; omega) S100000x128 x0 rfl rfl 0 rfl
      (ix2 p ⟨k.val, h0⟩) (fun b hb => by
        match b with
        | ⟨0, _⟩ => rfl
        | ⟨1, _⟩ => exact absurd rfl hb) (by show 0 + k.val = k.val; omega)
  · rw [dif_neg h0]
    by_cases h1 : k.val < 256
    · rw [dif_pos h1]
      exact concatenate_apply_piece (1 : Fin S100000x384.rank) _ _ (ix2 p k) 1 (by show (1 : Nat) < 3; omega) S100000x128
        (val_main_v9 (F := Ideal) x1 x2) rfl rfl 128 rfl
        (ix2 p ⟨k.val - 128, by omega⟩) (fun b hb => by
          match b with
          | ⟨0, _⟩ => rfl
          | ⟨1, _⟩ => exact absurd rfl hb) (by show 128 + (k.val - 128) = k.val; omega)
    · rw [dif_neg h1]
      refine (concatenate_apply_piece (1 : Fin S100000x384.rank) _ _ (ix2 p k) 2 (by show (2 : Nat) < 3; omega) S100000x128
        (val_main_v11 (F := Ideal) x3) rfl rfl 256 rfl
        (ix2 p ⟨k.val - 256, by omega⟩) (fun b hb => by
          match b with
          | ⟨0, _⟩ => rfl
          | ⟨1, _⟩ => exact absurd rfl hb) (by show 256 + (k.val - 256) = k.val; omega)).trans ?_
      exact v11_apply x3 p _

/-- THE COMBINE LAYER at `(p, q)`: the one 384-term contraction of the concatenated row plus the bias is
    the specification's three 128-term contractions (`combine_cat`). -/
theorem v16_apply (p : Fin 100000) (q : Fin 128) :
    val_main_v16 (F := Ideal) x0 x1 x2 x3 x4 x5 (ix2 p q)
      = combine x0 (val_main_v9 (F := Ideal) x1 x2) x3 x4 x5 p q := by
  rw [val_main_v16_apply, val_main_v13_apply, val_main_v15_apply, val_main_v14_apply]
  have hl : ∀ k : Fin 384, lidx_main_v13 (ix2 p q) k = ix2 p k := fun k => funext fun a => by
    match a with | ⟨0, _⟩ => rfl | ⟨1, _⟩ => rfl
  have hr : ∀ k : Fin 384, ridx_main_v13 (ix2 p q) k = ix2 k q := fun k => funext fun a => by
    match a with | ⟨0, _⟩ => rfl | ⟨1, _⟩ => rfl
  have hb : idx_main_v14 (idx_main_v15 (ix2 p q)) = ix1 q := funext fun a => by
    match a with | ⟨0, _⟩ => rfl
  simp only [hl, hr, hb, v12_apply]
  exact combine_cat x0 (val_main_v9 (F := Ideal) x1 x2) x3 x4 x5 p q

/-! ## The result -/

/-- THE REFERENCE'S RESULT is the specification's network of the arguments and the scattered edge sums. -/
theorem v30_eq_mlp :
    val_main_v30 (F := Ideal) x0 x1 x2 x3 x4 x5 x6 x7 x8 x9 x10 x11
      = mlp x0 (val_main_v9 (F := Ideal) x1 x2) x3 x4 x5 x6 x7 x8 x9 x10 x11 := by
  funext j
  obtain ⟨p, q, rfl⟩ : ∃ (p : Fin 100000) (q : Fin 128), j = ix2 p q := ⟨j 0, j 1, eq_ix2 j⟩
  rw [mlp_apply, v30_apply]
  unfold head
  refine congrArg (fun f => dense x10 (fun q => x11 (ix1 q)) f q) (funext fun k => ?_)
  rw [v26_apply, v25_apply]
  refine congrArg (fun f => softplus (dense x8 (fun q => x9 (ix1 q)) f k)) (funext fun k' => ?_)
  rw [v21_apply, v20_apply]
  refine congrArg (fun f => softplus (dense x6 (fun q => x7 (ix1 q)) f k')) (funext fun k'' => ?_)
  exact v16_apply x0 x1 x2 x3 x4 x5 p k''

end Cert.ReferenceIdeal.Stages

end
-- ==== Proof.lean ====
/-
  The certificate of a fused node-update network of a graph layer: for each of 100000 nodes,
      c   = [x_row | ea_row | g] · Wc + bc          (ea: the edge features scatter-added into node slots)
      out = dense W3 b3 (softplus (dense W2 b2 (softplus (dense W1 b1 c))))
  computed by one gridded kernel (25 blocks of 4000 rows) against the plain array program.

  Both programs scatter-add the edge features by the same host operations, so `ea` is one array. The kernel
  splits the 384 x 128 combine weight into three 128-row slabs, folds the global row's contribution
  `g · Wc₂` into the bias before the call, and forms `(x·Wc₀ + ea·Wc₁) + (bc + g·Wc₂)` block by block; the
  reference concatenates the three 128-entry rows and contracts once over 384 terms, then adds `bc`. On the
  extended reals addition is commutative and associative and a sum over 384 = 3 · 128 indices is the sum of
  its three slabs, so the two combine layers agree (Spec.lean, `combine_cat`); no finiteness of the inputs
  is used anywhere. After the combine layer the two programs apply the same three dense layers (a matrix
  product accumulated into zero and the host's dot product are one contraction there, and changes of float
  format are the identity) and the same softplus, `max v 0 + log1p (exp (-|v|))`, each behind a guard
  `v - 0 ≠ v - 0` that is never taken because nothing differs from itself.

  KernelPay.lean reads the kernel body's stored block at an index; KernelBlocks.lean goes from the 25
  blocks to the whole output array; KernelHost.lean reads the arrays the kernel stages (weight slabs, folded
  bias, bias rows) in terms of the arguments; RefStages.lean reads the reference stage by stage. Here the
  two results are set side by side.
-/
import proofs.«146724_j47974784696393_1_alg».proof.Defs
import proofs.«146724_j47974784696393_1_alg».proof.Proof.Gen.Kernel
import proofs.«146724_j47974784696393_1_alg».proof.Proof.Gen.Kernel.Skeleton
import proofs.«146724_j47974784696393_1_alg».proof.Proof.Gen.Kernel.Launch
import proofs.«146724_j47974784696393_1_alg».proof.Proof.Gen.Kernel.Points
import proofs.«146724_j47974784696393_1_alg».proof.Proof.Gen.Kernel.Frame
import proofs.«146724_j47974784696393_1_alg».proof.Proof.Gen.KernelIdeal
import proofs.«146724_j47974784696393_1_alg».proof.Proof.Gen.KernelIdeal.Skeleton
import proofs.«146724_j47974784696393_1_alg».proof.Proof.Gen.KernelIdeal.Launch
import proofs.«146724_j47974784696393_1_alg».proof.Proof.Gen.KernelIdeal.Points
import proofs.«146724_j47974784696393_1_alg».proof.Proof.Gen.KernelIdeal.Frame
import proofs.«146724_j47974784696393_1_alg».proof.Proof.Gen.ReferenceIdeal
import proofs.«146724_j47974784696393_1_alg».proof.Proof.Gen.Pre_finite_inputs
import proofs.«146724_j47974784696393_1_alg».proof.Proof.Gen.KernelIdeal.Value
import proofs.«146724_j47974784696393_1_alg».proof.Proof.KernelHost
import proofs.«146724_j47974784696393_1_alg».proof.Proof.RefStages
import Idealize.ShloMosaic.Adequacy
import Idealize.ShloMosaic.Init

noncomputable section

namespace Cert.Proof

open Idealize.ShloMosaic Idealize.ShloMosaic.TcCoe Idealize.SL.Sem Idealize.ShloMosaic.StableHlo

/-! ## The frames and the idealization -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealized kernel is the kernel's own text read on the extended reals. -/
theorem preserves : Cert.preserves_Kernel_KernelIdeal := trivial

/-! ## The two results -/

/-- THE AGGREGATED EDGE FEATURES are one array: the kernel's @main scatter-adds the edge features into the
    node slots by the very operations the reference uses (the first row of the index array, negative
    indices wrapped by the node count, added into a zero array). -/
theorem edges_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v9 : Cert.KernelIdeal.S100000x128.Idx → EReal)
      = Cert.ReferenceIdeal.ReadP.val_main_v9 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  dsimp only [Cert.KernelIdeal.Gen.V, Cert.KernelIdeal.Gen.hostOps0]; after_results; rfl

/-- On the extended reals, from memories that agree on the twelve arguments, both programs end with the
    specification's network of the arguments in their result arrays. -/
theorem algebraic : Cert.algebraic_KernelIdeal_ReferenceIdeal := by
  intro m ρ m' ρ' _ hagree
  refine ⟨_, Cert.KernelIdeal.HostSide.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11⟩ := hagree c
  rw [Cert.ReferenceIdeal.ReadP.val_main_v30_eq, Cert.ReferenceIdeal.Stages.v30_eq_mlp,
    h0, h1, h2, h3, h4, h5, h6, h7, h8, h9, h10, h11, ← edges_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
